-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x28x28 : Shape := ⟨4, ![32, 512, 28, 28]⟩
abbrev S2000x512 : Shape := ⟨2, ![2000, 512]⟩
abbrev S_ : Shape := ⟨0, ![]⟩

class Facts : Prop where
  bcast_S_S32x512x28x28 : S_.BroadcastsInDim S32x512x28x28 (![] : Fin 0 → Fin S32x512x28x28.rank)
  reducesTo_S32x512x28x28_S_d0_1_2_3 : S32x512x28x28.ReducesTo [0, 1, 2, 3] S_
  h_S_ : 0 < S_.numel
  bcast_S_S2000x512 : S_.BroadcastsInDim S2000x512 (![] : Fin 0 → Fin S2000x512.rank)
  reducesTo_S2000x512_S_d0_1 : S2000x512.ReducesTo [0, 1] S_

variable [Facts]

def fn {F : FTy → Type} [FloatOps F] (main_arg0 : FVec F S32x512x28x28 .f32) (main_arg1 : FVec F S2000x512 .f32) : IVec S_ 1 :=
  let main_v0 : FVec F S32x512x28x28 .f32 := Host.absf main_arg0
  let main_cst : FVec F S_ .f32 := constant S_ .f32 0x7F800000#32
  let main_v1 : FVec F S32x512x28x28 .f32 := broadcastInDim S32x512x28x28 ![] bcast_S_S32x512x28x28 main_cst
  let main_v2 : IVec S32x512x28x28 1 := cmpf .olt main_v0 main_v1
  let main_c : IVec S_ 1 := constantI S_ 1 1#1
  let main_v3 : IVec S_ 1 := (fun x v => Host.reduce IntOp.andi x v reducesTo_S32x512x28x28_S_d0_1_2_3 h_S_) main_v2 main_c
  let main_v4 : FVec F S2000x512 .f32 := Host.absf main_arg1
  let main_cst_0 : FVec F S_ .f32 := constant S_ .f32 0x7F800000#32
  let main_v5 : FVec F S2000x512 .f32 := broadcastInDim S2000x512 ![] bcast_S_S2000x512 main_cst_0
  let main_v6 : IVec S2000x512 1 := cmpf .olt main_v4 main_v5
  let main_c_1 : IVec S_ 1 := constantI S_ 1 1#1
  let main_v7 : IVec S_ 1 := (fun x v => Host.reduce IntOp.andi x v reducesTo_S2000x512_S_d0_1 h_S_) main_v6 main_c_1
  let main_v8 : IVec S_ 1 := andi main_v3 main_v7
  main_v8
-- ==== Kernel.lean ====
abbrev S32x512x28x28 : Shape := ⟨4, ![32, 512, 28, 28]⟩
abbrev S2000x512 : Shape := ⟨2, ![2000, 512]⟩
abbrev S32x512x784 : Shape := ⟨3, ![32, 512, 784]⟩
abbrev S_ : Shape := ⟨0, ![]⟩
abbrev S2000 : Shape := ⟨1, ![2000]⟩
abbrev S2000x1 : Shape := ⟨2, ![2000, 1]⟩
abbrev S2048x512 : Shape := ⟨2, ![2048, 512]⟩
abbrev S2048x1 : Shape := ⟨2, ![2048, 1]⟩
abbrev S32x2048 : Shape := ⟨2, ![32, 2048]⟩
abbrev S8x512x784 : Shape := ⟨3, ![8, 512, 784]⟩
abbrev S1024x512 : Shape := ⟨2, ![1024, 512]⟩
abbrev S1024x1 : Shape := ⟨2, ![1024, 1]⟩
abbrev S8x1024 : Shape := ⟨2, ![8, 1024]⟩
abbrev S1x512x784 : Shape := ⟨3, ![1, 512, 784]⟩
abbrev S512x784 : Shape := ⟨2, ![512, 784]⟩
abbrev S1024x784 : Shape := ⟨2, ![1024, 784]⟩
abbrev S784 : Shape := ⟨1, ![784]⟩
abbrev S1x784 : Shape := ⟨2, ![1, 784]⟩
abbrev S1024 : Shape := ⟨1, ![1024]⟩
abbrev S1x1024 : Shape := ⟨2, ![1, 1024]⟩
abbrev S32x2000 : Shape := ⟨2, ![32, 2000]⟩

abbrev nBuf : Space → Nat
  | .hbm => 16
  | .vmem => 8
  | .smem => 0
  | _ => 0

abbrev bufTy : (tb : Table) → Fin (tcTables nBuf tb) → BufTy
  | .hbm, ⟨0, _⟩ => ⟨S32x512x28x28, .f32⟩
  | .hbm, ⟨1, _⟩ => ⟨S2000x512, .f32⟩
  | .hbm, ⟨2, _⟩ => ⟨S32x512x784, .f32⟩
  | .hbm, ⟨3, _⟩ => ⟨S2000x512, .f32⟩
  | .hbm, ⟨4, _⟩ => ⟨S_, .f32⟩
  | .hbm, ⟨5, _⟩ => ⟨S2000, .f32⟩
  | .hbm, ⟨6, _⟩ => ⟨S2000x1, .f32⟩
  | .hbm, ⟨7, _⟩ => ⟨S_, .i32⟩
  | .hbm, ⟨8, _⟩ => ⟨S_, .f32⟩
  | .hbm, ⟨9, _⟩ => ⟨S2048x512, .f32⟩
  | .hbm, ⟨10, _⟩ => ⟨S_, .i32⟩
  | .hbm, ⟨11, _⟩ => ⟨S_, .f32⟩
  | .hbm, ⟨12, _⟩ => ⟨S2048x1, .f32⟩
  | .hbm, ⟨13, _⟩ => ⟨S2048x512, .bf16⟩
  | .hbm, ⟨14, _⟩ => ⟨S32x2048, .f32⟩
  | .hbm, ⟨15, _⟩ => ⟨S32x2000, .f32⟩
  | .local _ .vmem, ⟨0, _⟩ => ⟨S8x512x784, .f32⟩
  | .local _ .vmem, ⟨1, _⟩ => ⟨S8x512x784, .f32⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S8x1024, .f32⟩
  | .local _ .vmem, ⟨7, _⟩ => ⟨S8x1024, .f32⟩
  | _, _ => ⟨S32x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S32x512x28x28_S32x512x784 : S32x512x28x28.ShapeCasts S32x512x784
  reducesTo_S2000x512_S2000_d1 : S2000x512.ReducesTo [1] S2000
  h_S_ : 0 < S_.numel
  bcast_S2000_S2000x1_0 : S2000.BroadcastsInDim S2000x1 (![0] : Fin 1 → Fin S2000x1.rank)
  pads_S2000x512_S2048x512_0480_000 : S2000x512.Pads (![0, 0] : Fin 2 → Nat) ![48, 0] ![0, 0] S2048x512
  pads_S2000x1_S2048x1_0480_000 : S2000x1.Pads (![0, 0] : Fin 2 → Nat) ![48, 0] ![0, 0] S2048x1
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S8x512x784_S1x512x784_0_0_0 : ∀ a, (![0, 0, 0] : Fin 3 → Nat) a + S1x512x784.size a ≤ S8x512x784.size a
  h_S1x512x784 : 0 < S1x512x784.numel
  shapeCasts_S1x512x784_S512x784 : S1x512x784.ShapeCasts S512x784
  reduces_S512x784_S784 : S512x784.Reduces [0] S784
  shapeCasts_S784_S1x784 : S784.ShapeCasts S1x784
  broadcasts_S1024x1_S1024x784 : S1024x1.Broadcasts S1024x784
  broadcasts_S1x784_S1024x784 : S1x784.Broadcasts S1024x784
  reduces_S1024x784_S1024 : S1024x784.Reduces [1] S1024
  shapeCasts_S1024_S1024x1 : S1024.ShapeCasts S1024x1
  transposes_S1024x1_p1_0_S1x1024 : S1024x1.Transposes [1, 0] S1x1024
  inb_S8x1024_S1x1024_0_0 : ∀ a, (![0, 0] : Fin 2 → Nat) a + S1x1024.size a ≤ S8x1024.size a
  h_S1x1024 : 0 < S1x1024.numel
  inb_S8x512x784_S1x512x784_1_0_0 : ∀ a, (![1, 0, 0] : Fin 3 → Nat) a + S1x512x784.size a ≤ S8x512x784.size a
  inb_S8x1024_S1x1024_1_0 : ∀ a, (![1, 0] : Fin 2 → Nat) a + S1x1024.size a ≤ S8x1024.size a
  inb_S8x512x784_S1x512x784_2_0_0 : ∀ a, (![2, 0, 0] : Fin 3 → Nat) a + S1x512x784.size a ≤ S8x512x784.size a
  inb_S8x1024_S1x1024_2_0 : ∀ a, (![2, 0] : Fin 2 → Nat) a + S1x1024.size a ≤ S8x1024.size a
  inb_S8x512x784_S1x512x784_3_0_0 : ∀ a, (![3, 0, 0] : Fin 3 → Nat) a + S1x512x784.size a ≤ S8x512x784.size a
  inb_S8x1024_S1x1024_3_0 : ∀ a, (![3, 0] : Fin 2 → Nat) a + S1x1024.size a ≤ S8x1024.size a
  inb_S8x512x784_S1x512x784_4_0_0 : ∀ a, (![4, 0, 0] : Fin 3 → Nat) a + S1x512x784.size a ≤ S8x512x784.size a
  inb_S8x1024_S1x1024_4_0 : ∀ a, (![4, 0] : Fin 2 → Nat) a + S1x1024.size a ≤ S8x1024.size a
  inb_S8x512x784_S1x512x784_5_0_0 : ∀ a, (![5, 0, 0] : Fin 3 → Nat) a + S1x512x784.size a ≤ S8x512x784.size a
  inb_S8x1024_S1x1024_5_0 : ∀ a, (![5, 0] : Fin 2 → Nat) a + S1x1024.size a ≤ S8x1024.size a
  inb_S8x512x784_S1x512x784_6_0_0 : ∀ a, (![6, 0, 0] : Fin 3 → Nat) a + S1x512x784.size a ≤ S8x512x784.size a
  inb_S8x1024_S1x1024_6_0 : ∀ a, (![6, 0] : Fin 2 → Nat) a + S1x1024.size a ≤ S8x1024.size a
  inb_S8x512x784_S1x512x784_7_0_0 : ∀ a, (![7, 0, 0] : Fin 3 → Nat) a + S1x512x784.size a ≤ S8x512x784.size a
  inb_S8x1024_S1x1024_7_0 : ∀ a, (![7, 0] : Fin 2 → Nat) a + S1x1024.size a ≤ S8x1024.size a
  slices_S32x2048_S32x2000_0_0 : S32x2048.Slices ![0, 0] S32x2000
  dot_S1024x512_S512x784_S1024x784_1_0_0_1_n_n_wf : DotDims.WF S1024x512 S512x784 S1024x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x784.size a ≤ S32x512x784.size a
  hwx0_0 : ∀ i : grid0.Coords, EltTy.bits .f32 = 32 ∨ (Rect.block (s := S32x512x784) S8x512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x512.size a
  hwx0_1 : ∀ i : grid0.Coords, EltTy.bits .bf16 = 32 ∨ (Rect.block (s := S2048x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .f32 = 32 ∨ (Rect.block (s := S2048x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x2048.size a
  hwx0_3 : ∀ i : grid0.Coords, EltTy.bits .f32 = 32 ∨ (Rect.block (s := S32x2048) S8x1024.size (cc0_transform_3 i) (hinb0_3 i)).WholeWords (EltTy.packing .f32)

variable [Facts₀]

def dot_S1024x512_S512x784_S1024x784_1_0_0_1_n_n : DotDims S1024x512 S512x784 S1024x784 where
  lhsContracting := [1]
  rhsContracting := [0]
  lhsNonContracting := [0]
  rhsNonContracting := [1]
  lhsBatch := []
  rhsBatch := []
  wf := dot_S1024x512_S512x784_S1024x784_1_0_0_1_n_n_wf

abbrev win0_0 : Pipeline.Window sig grid0 :=
  Pipeline.Window.ofSpec (Memref.whole main_v0) S8x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x28x28 : Shape := ⟨4, ![32, 512, 28, 28]⟩
abbrev S2000x512 : Shape := ⟨2, ![2000, 512]⟩
abbrev S32x512x784 : Shape := ⟨3, ![32, 512, 784]⟩
abbrev S32x784x512 : Shape := ⟨3, ![32, 784, 512]⟩
abbrev S_ : Shape := ⟨0, ![]⟩
abbrev S32x784 : Shape := ⟨2, ![32, 784]⟩
abbrev S32x784x1 : Shape := ⟨3, ![32, 784, 1]⟩
abbrev S2000 : Shape := ⟨1, ![2000]⟩
abbrev S32x784x2000 : Shape := ⟨3, ![32, 784, 2000]⟩
abbrev S1x1x2000 : Shape := ⟨3, ![1, 1, 2000]⟩
abbrev S32x2000 : Shape := ⟨2, ![32, 2000]⟩

abbrev nBuf : Space → Nat
  | .hbm => 27
  | .vmem => 0
  | .smem => 0
  | _ => 0

abbrev bufTy : (tb : Table) → Fin (tcTables nBuf tb) → BufTy
  | .hbm, ⟨0, _⟩ => ⟨S32x512x28x28, .f32⟩
  | .hbm, ⟨1, _⟩ => ⟨S2000x512, .f32⟩
  | .hbm, ⟨2, _⟩ => ⟨S32x512x784, .f32⟩
  | .hbm, ⟨3, _⟩ => ⟨S32x784x512, .f32⟩
  | .hbm, ⟨4, _⟩ => ⟨S32x784x512, .f32⟩
  | .hbm, ⟨5, _⟩ => ⟨S_, .f32⟩
  | .hbm, ⟨6, _⟩ => ⟨S32x784, .f32⟩
  | .hbm, ⟨7, _⟩ => ⟨S32x784x1, .f32⟩
  | .hbm, ⟨8, _⟩ => ⟨S2000x512, .f32⟩
  | .hbm, ⟨9, _⟩ => ⟨S_, .f32⟩
  | .hbm, ⟨10, _⟩ => ⟨S2000, .f32⟩
  | .hbm, ⟨11, _⟩ => ⟨S32x784x2000, .f32⟩
  | .hbm, ⟨12, _⟩ => ⟨S1x1x2000, .f32⟩
  | .hbm, ⟨13, _⟩ => ⟨S32x784x2000, .f32⟩
  | .hbm, ⟨14, _⟩ => ⟨S32x784x2000, .f32⟩
  | .hbm, ⟨15, _⟩ => ⟨S32x784x2000, .f32⟩
  | .hbm, ⟨16, _⟩ => ⟨S_, .f32⟩
  | .hbm, ⟨17, _⟩ => ⟨S32x784x2000, .f32⟩
  | .hbm, ⟨18, _⟩ => ⟨S32x784x2000, .f32⟩
  | .hbm, ⟨19, _⟩ => ⟨S32x784x2000, .f32⟩
  | .hbm, ⟨20, _⟩ => ⟨S_, .f32⟩
  | .hbm, ⟨21, _⟩ => ⟨S32x784x2000, .f32⟩
  | .hbm, ⟨22, _⟩ => ⟨S32x784x2000, .f32⟩
  | .hbm, ⟨23, _⟩ => ⟨S32x784x2000, .f32⟩
  | .hbm, ⟨24, _⟩ => ⟨S_, .f32⟩
  | .hbm, ⟨25, _⟩ => ⟨S32x2000, .f32⟩
  | .hbm, ⟨26, _⟩ => ⟨S32x2000, .f32⟩
  | _, _ => ⟨S32x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S32x512x28x28_S32x512x784 : S32x512x28x28.ShapeCasts S32x512x784
  transposes_S32x512x784_S32x784x512_0_2_1 : S32x512x784.Transposes [0, 2, 1] S32x784x512
  reducesTo_S32x784x512_S32x784_d2 : S32x784x512.ReducesTo [2] S32x784
  h_S_ : 0 < S_.numel
  bcast_S32x784_S32x784x1_0_1 : S32x784.BroadcastsInDim S32x784x1 (![0, 1] : Fin 2 → Fin S32x784x1.rank)
  reducesTo_S2000x512_S2000_d1 : S2000x512.ReducesTo [1] S2000
  bcast_S2000_S1x1x2000_2 : S2000.BroadcastsInDim S1x1x2000 (![2] : Fin 1 → Fin S1x1x2000.rank)
  bcast_S32x784x1_S32x784x2000_0_1_2 : S32x784x1.BroadcastsInDim S32x784x2000 (![0, 1, 2] : Fin 3 → Fin S32x784x2000.rank)
  bcast_S1x1x2000_S32x784x2000_0_1_2 : S1x1x2000.BroadcastsInDim S32x784x2000 (![0, 1, 2] : Fin 3 → Fin S32x784x2000.rank)
  bcast_S_S32x784x2000 : S_.BroadcastsInDim S32x784x2000 (![] : Fin 0 → Fin S32x784x2000.rank)
  reducesTo_S32x784x2000_S32x2000_d1 : S32x784x2000.ReducesTo [1] S32x2000
  dot_S32x784x512_S2000x512_S32x784x2000_2_1_01_0_n_n_wf : DotDims.WF S32x784x512 S2000x512 S32x784x2000 [2] [1] [0, 1] [0] [] []

variable [Facts₀]

def dot_S32x784x512_S2000x512_S32x784x2000_2_1_01_0_n_n : DotDims S32x784x512 S2000x512 S32x784x2000 where
  lhsContracting := [2]
  rhsContracting := [1]
  lhsNonContracting := [0, 1]
  rhsNonContracting := [0]
  lhsBatch := []
  rhsBatch := []
  wf := dot_S32x784x512_S2000x512_S32x784x2000_2_1_01_0_n_n_wf

class Facts : Prop extends Facts₀ where

variable [Facts]
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.Spec.lean ====
/-
  The function both programs compute, on the extended reals.

  For one image `b` and one prototype `p`, with `x c n` the image's feature in channel `c` at patch `n` (512 channels,
  784 patches) and `a c` the prototype's entry in channel `c`, the squared distance from patch `n` to the prototype is
  expanded as `‖a‖² + ‖x_n‖² − 2·⟨a, x_n⟩`, clamped below at zero, and its root taken; the result is minus the least of
  the 784 distances. `negMinDist` writes this with the squared norm of the prototype as a separate argument `p2`
  (one side computes it once per prototype and carries it along), the norm term first and the inner product's factors
  in the order prototype × patch. `negMinDist_eq_patchFirst` is the same number with the two norms added in the other
  order and each product's factors swapped, and with the negation written as a negation instead of a difference from
  zero: addition and multiplication of extended reals commute, so no finiteness is used.
-/
import Idealize.ShloMosaic.PureOps.Ideal.Laws
import Idealize.ShloMosaic.Lib.ValueIdx

noncomputable section

namespace Cert.Spec

open Idealize.ShloMosaic Idealize.ShloMosaic.ValueIdx

/-- The three float words both programs print: `+∞` (where a minimum starts), `2` and `0`. -/
abbrev posInf : EReal := Ideal.ofBits .f32 0x7F800000#32
abbrev two : EReal := Ideal.ofBits .f32 0x40000000#32
abbrev zero : EReal := Ideal.ofBits .f32 0x00000000#32

/-- The distance from patch `n` to the prototype: the root of `p2 + ‖x_n‖² − 2·⟨a, x_n⟩` clamped at zero. -/
def patchDist (x : Fin 512 → Fin 784 → EReal) (a : Fin 512 → EReal) (p2 : EReal) (n : Fin 784) : EReal :=
  Ideal.sqrt (max ((p2 + ∑ c : Fin 512, x c n * x c n) - two * ∑ c : Fin 512, a c * x c n) zero)

/-- Minus the least of the 784 distances (the minimum taken from `+∞`). -/
def negMinDist (x : Fin 512 → Fin 784 → EReal) (a : Fin 512 → EReal) (p2 : EReal) : EReal :=
  zero - (Finset.univ : Finset (Fin 784)).fold min posInf (patchDist x a p2)

/-- The same number, patch norm first and patch × prototype in each product, each sum begun at the zero word, negated
    outright. -/
theorem negMinDist_eq_patchFirst (x : Fin 512 → Fin 784 → EReal) (a : Fin 512 → EReal) (p2 : EReal) :
    -((Finset.univ : Finset (Fin 784)).fold min posInf fun n =>
        Ideal.sqrt (max (((zero + ∑ c : Fin 512, x c n * x c n) + p2) - two * ∑ c : Fin 512, x c n * a c) zero))
      = negMinDist x a p2 := by
  unfold negMinDist
  rw [show (zero : EReal) - _ = -_ from by rw [show (zero : EReal) = 0 from Ideal.ofBits_zero_f32]; exact zero_sub _]
  refine congrArg (fun f => -((Finset.univ : Finset (Fin 784)).fold min posInf f)) (funext fun n => ?_)
  unfold patchDist
  rw [show (zero : EReal) + ∑ c : Fin 512, x c n * x c n = ∑ c : Fin 512, x c n * x c n from by
        rw [show (zero : EReal) = 0 from Ideal.ofBits_zero_f32]; exact zero_add _,
      add_comm (∑ c : Fin 512, x c n * x c n) p2,
      Finset.sum_congr rfl fun c _ => mul_comm (x c n) (a c)]

/-- The whole result: entry `(b, p)` from the features `X` laid out as image × channel × patch and the prototypes `A`,
    the prototype's squared norm summed from the zero word. -/
def distGrid (X : (⟨3, ![32, 512, 784]⟩ : Shape).Idx → EReal) (A : (⟨2, ![2000, 512]⟩ : Shape).Idx → EReal)
    (b : Fin 32) (p : Fin 2000) : EReal :=
  negMinDist (fun c n => X (ix3 b c n)) (fun c => A (ix2 p c)) (zero + ∑ c : Fin 512, A (ix2 p c) * A (ix2 p c))

/-- As an array of shape `[32, 2000]`. -/
def result (X : (⟨3, ![32, 512, 784]⟩ : Shape).Idx → EReal) (A : (⟨2, ![2000, 512]⟩ : Shape).Idx → EReal) :
    (⟨2, ![32, 2000]⟩ : Shape).Idx → EReal :=
  fun i => distGrid X A (i 0) (i 1)

end Cert.Spec

end
-- ==== Proof.Payload.lean ====
/-
  One row of the kernel's output block, read at a column.

  At each grid point the kernel body loops over the eight images of its feature block; for image `r` it stores one
  `[1, 1024]` row: column `q` holds minus the least distance from the image's 784 patches to prototype `q` of the
  point's prototype block. The eight rows are eight copies of one expression of three loaded values — the prototype
  block `v1 : [1024, 512]`, the prototypes' squared norms `v3 : [1024, 1]` and the image's features `v : [1, 512, 784]` —
  (`rowOf` below names it; the eight printed payloads are it, `row0_eq` … `row7_eq`), and `rowOf_apply` reads it at
  column `q` as `Spec.negMinDist` of the image's features, row `q` of the prototype block and entry `q` of the norms:
  the product on the matrix unit is the sum over the 512 channels of prototype × feature, the sum of squares down the
  channels is the sum over the 512 channels, the lane minimum from `+∞` is the fold of `min` over the 784 patches, and
  the casts, broadcasts and the transpose only re-lay values.
-/
import proofs.«174697_j70574902607955_1_alg».proof.Proof.Gen.KernelIdeal.Skeleton
import proofs.«174697_j70574902607955_1_alg».proof.Proof.LibColumn
import proofs.«174697_j70574902607955_1_alg».proof.Proof.Spec
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx Cert.Lib.Column

/-! ## Two reductions over one axis of a matrix, as folds over that axis's coordinates -/

/-- The minimum along the rows of an `[a, d]` block (a float `multi_reduction <minimumf>` over axis 1), from `+∞`, on
    the extended reals at row `i`: the fold of `min` from `+∞` over the row's `d` entries. -/
theorem rowMin_apply {a d : ℕ} (src : FVec Ideal ⟨2, ![a, d]⟩ .f32)
    (h : (⟨2, ![a, d]⟩ : Shape).Reduces [1] ⟨1, ![a]⟩) (hφ : FKind.Formats .f32)
    (hacc : (0x7F800000#32 : BitVec 32) = 0x7F800000#32) (i : Fin a) :
    multiReduction .minimumf [1] ⟨1, ![a]⟩ src 0x7F800000#32 h hφ hacc (ix1 i)
      = (Finset.univ : Finset (Fin d)).fold min Spec.posInf (fun k => src (ix2 i k)) := by
  have e : multiReduction .minimumf [1] ⟨1, ![a]⟩ src 0x7F800000#32 h hφ hacc (ix1 i)
      = (Finset.univ : Finset (Fin d)).fold min Spec.posInf (src ∘ h.lift (ix1 i)) :=
    (multiReduction_minimumf_eq_fold src 0x7F800000#32 h hφ hacc (ix1 i)).trans
      (h.fold_filter_drop_single _ _ src (ix1 i))
  rw [e]
  refine Finset.fold_congr fun k _ => congrArg src (funext fun c => Fin.ext (by
    match c with
    | ⟨0, _⟩ => rfl
    | ⟨1, _⟩ => rfl))

/-- The sum down the columns of a `[d, b]` block (a float `multi_reduction <add>` over axis 0), on the extended reals
    at column `j`: the finite sum of the column's `d` entries. -/
theorem colSum_apply {d b : ℕ} (src : FVec Ideal ⟨2, ![d, b]⟩ .f32)
    (h : (⟨2, ![d, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ k : Fin d, src (ix2 k j) :=
  (Ideal.multiReduction_add_single src 0x00000000#32 h hφ hacc (ix1 j)).trans
    (Finset.sum_congr rfl fun k _ => congrArg src (funext fun c => Fin.ext (by
      match c with
      | ⟨0, _⟩ => rfl
      | ⟨1, _⟩ => rfl)))

/-! ## The product on the matrix unit, read at an entry -/

theorem lhs_dot_0 (i : S1024x784.Idx) (q : dot_S1024x512_S512x784_S1024x784_1_0_0_1_n_n.contr.Idx) :
    (dot_S1024x512_S512x784_S1024x784_1_0_0_1_n_n.lhsIdx i q 0).val = (i 0).val := by
  unfold DotDims.lhsIdx
  rw [dif_neg (show ¬(0 : Fin S1024x512.rank) ∈ dot_S1024x512_S512x784_S1024x784_1_0_0_1_n_n.lhsBatch by decide), dif_pos (show (0 : Fin S1024x512.rank) ∈ dot_S1024x512_S512x784_S1024x784_1_0_0_1_n_n.lhsNonContracting by decide)]
  rfl
theorem lhs_dot_1 (i : S1024x784.Idx) (q : dot_S1024x512_S512x784_S1024x784_1_0_0_1_n_n.contr.Idx) :
    (dot_S1024x512_S512x784_S1024x784_1_0_0_1_n_n.lhsIdx i q 1).val = (q ⟨0, by decide⟩).val :=
  dot_S1024x512_S512x784_S1024x784_1_0_0_1_n_n.lhsIdx_val_of_single rfl i q
theorem rhs_dot_0 (i : S1024x784.Idx) (q : dot_S1024x512_S512x784_S1024x784_1_0_0_1_n_n.contr.Idx) :
    (dot_S1024x512_S512x784_S1024x784_1_0_0_1_n_n.rhsIdx i q 0).val = (q ⟨0, by decide⟩).val :=
  dot_S1024x512_S512x784_S1024x784_1_0_0_1_n_n.rhsIdx_val_of_single rfl i q
theorem rhs_dot_1 (i : S1024x784.Idx) (q : dot_S1024x512_S512x784_S1024x784_1_0_0_1_n_n.contr.Idx) :
    (dot_S1024x512_S512x784_S1024x784_1_0_0_1_n_n.rhsIdx i q 1).val = (i 1).val := by
  unfold DotDims.rhsIdx
  rw [dif_neg (show ¬(1 : Fin S512x784.rank) ∈ dot_S1024x512_S512x784_S1024x784_1_0_0_1_n_n.rhsBatch by decide), dif_pos (show (1 : Fin S512x784.rank) ∈ dot_S1024x512_S512x784_S1024x784_1_0_0_1_n_n.rhsNonContracting by decide)]
  rfl

/-- The `[1024, 512] × [512, 784]` product into a zero accumulator, at entry `(q, n)`: the sum over the 512 channels of
    the left operand's row `q` times the right operand's column `n`. -/
theorem protoTimesPatch_apply {φ₁ φ₂ : FTy} (l : FVec Ideal S1024x512 φ₁) (r : FVec Ideal S512x784 φ₂) (q : Fin 1024) (n : Fin 784) :
    matmul dot_S1024x512_S512x784_S1024x784_1_0_0_1_n_n none l r (constant S1024x784 .f32 0x00000000#32) (ix2 q n)
      = ∑ c : Fin 512, l (ix2 q c) * r (ix2 c n) := by
  simp only [matmul]
  rw [Ideal.matmul_constant_zero_apply, ← Equiv.sum_comp (ValueIdx.contrEquiv1 dot_S1024x512_S512x784_S1024x784_1_0_0_1_n_n 512 rfl rfl).symm]
  refine Finset.sum_congr rfl fun k _ => ?_
  have hk := ValueIdx.contrEquiv1_symm_val dot_S1024x512_S512x784_S1024x784_1_0_0_1_n_n 512 rfl rfl k
  have el : dot_S1024x512_S512x784_S1024x784_1_0_0_1_n_n.lhsIdx (ix2 q n) ((ValueIdx.contrEquiv1 dot_S1024x512_S512x784_S1024x784_1_0_0_1_n_n 512 rfl rfl).symm k) = ix2 q k := funext fun a => Fin.ext (by
    match a with
    | ⟨0, _⟩ => exact lhs_dot_0 _ _
    | ⟨1, _⟩ => exact (lhs_dot_1 _ _).trans hk)
  have er : dot_S1024x512_S512x784_S1024x784_1_0_0_1_n_n.rhsIdx (ix2 q n) ((ValueIdx.contrEquiv1 dot_S1024x512_S512x784_S1024x784_1_0_0_1_n_n 512 rfl rfl).symm k) = ix2 k n := funext fun a => Fin.ext (by
    match a with
    | ⟨0, _⟩ => exact (rhs_dot_0 _ _).trans hk
    | ⟨1, _⟩ => exact rhs_dot_1 _ _)
  rw [el, er]

/-! ## The row -/

variable {F : FTy → Type} [FloatOps F]

/-- One image's row of the output block, from the prototype block, the prototypes' squared norms and the image's
    features (the last of the body's eight stores is exactly this term). -/
abbrev rowOf (v1 : FVec F S1024x512 .bf16) (v3 : FVec F S1024x1 .f32) (v : Vec F S1x512x784 .f32) : FVec F S1x1024 .f32 :=
  k0_pay2 v1 v3 v

/-- The body's other seven stores hold the same term of their own image's features: the printed payloads differ only in
    where the printed function was cut into parts. -/
theorem row0_eq (x1 : Vec F S1024x512 .bf16) (x2 : Vec F S1024x1 .f32) (v : Vec F S1x512x784 .f32) :
    k0_pay5 x1 x2 v = rowOf (k0_pay3 x1) (k0_pay4 x2) v := rfl
theorem row1_eq (x1 : Vec F S1024x512 .bf16) (x2 : Vec F S1024x1 .f32) (v : Vec F S1x512x784 .f32) :
    k0_pay9 (k0_pay7 x1 v) (k0_pay8 x2 v) (Scalar.ofBits .f32 0x40000000#32) = rowOf (k0_pay3 x1) (k0_pay4 x2) v := rfl
theorem row2_eq (v1 : FVec F S1024x512 .bf16) (v3 : FVec F S1024x1 .f32) (v : Vec F S1x512x784 .f32) :
    k0_pay10 v1 v3 v = rowOf v1 v3 v := rfl
theorem row3_eq (v1 : FVec F S1024x512 .bf16) (v3 : FVec F S1024x1 .f32) (v : Vec F S1x512x784 .f32) :
    k0_pay13 v3 (k0_pay11 v) (k0_pay12 v1 v) = rowOf v1 v3 v := rfl
theorem row4_eq (v1 : FVec F S1024x512 .bf16) (v3 : FVec F S1024x1 .f32) (v : Vec F S1x512x784 .f32) :
    k0_pay14 v1 v3 v = rowOf v1 v3 v := rfl
theorem row5_eq (v1 : FVec F S1024x512 .bf16) (v3 : FVec F S1024x1 .f32) (v : Vec F S1x512x784 .f32) :
    k0_pay15 v1 v3 v = rowOf v1 v3 v := rfl
theorem row6_eq (v1 : FVec F S1024x512 .bf16) (v3 : FVec F S1024x1 .f32) (v : Vec F S1x512x784 .f32) :
    k0_pay1 (k0_pay16 v1 v3 v) = rowOf v1 v3 v := rfl

/-- The two loaded blocks that every row shares pass through a cast to their own shape: unchanged. -/
theorem protoBlock_eq (x1 : Vec F S1024x512 .bf16) : k0_pay3 x1 = x1 := shapeCast_self x1 _
theorem normBlock_eq (x2 : Vec F S1024x1 .f32) : k0_pay4 x2 = x2 := shapeCast_self x2 _

/-- THE ROW AT A COLUMN: column `q` is minus the least distance from the image's patches to prototype `q`. -/
theorem rowOf_apply (v1 : FVec Ideal S1024x512 .bf16) (v3 : FVec Ideal S1024x1 .f32) (v : Vec Ideal S1x512x784 .f32)
    (u : Fin 1) (q : Fin 1024) :
    rowOf (F := Ideal) v1 v3 v (ix2 u q)
      = Spec.negMinDist (fun c n => v (ix3 (0 : Fin 1) c n)) (fun c => v1 (ix2 q c)) (v3 (ix2 q (0 : Fin 1))) := by
  unfold rowOf k0_pay2 Spec.negMinDist
  rw [subf_apply, broadcast_apply, transpose_ix2_apply, shapeCast_a_a1_apply, rowMin_apply]
  refine congrArg (fun f => Spec.zero - (Finset.univ : Finset (Fin 784)).fold min Spec.posInf f) (funext fun n => ?_)
  unfold Spec.patchDist
  show Ideal.sqrt (max (_ - _) _) = _
  rw [addf_apply, mulf_apply, broadcast_apply, broadcast_apply, broadcastTo_a1_ab_apply, broadcastTo_1b_ab_apply,
    shapeCast_a_1a_apply, colSum_apply, protoTimesPatch_apply]
  simp only [mulf_apply, truncf_apply, shapeCast_1ab_ab_apply]
  rfl

end Cert.KernelIdeal.Row

end
-- ==== Proof.Block.lean ====
/-
  What one grid point writes: the kernel's `[8, 1024]` output block as a function of its three input blocks.

  The body stores the block as eight rows, one per image of the feature block; row `r`, column `q` is
  `Spec.negMinDist` of image `r`'s features, row `q` of the prototype block and entry `q` of the norms block
  (`blockAt`). The eight stores tile the block, so the block is that function everywhere (`outBlock_eq`).
-/
import proofs.«174697_j70574902607955_1_alg».proof.Proof.Gen.KernelIdeal.Frame
import proofs.«174697_j70574902607955_1_alg».proof.Proof.Payload

set_option maxRecDepth 16384

noncomputable section

namespace Cert.KernelIdeal.Block

open Cert.KernelIdeal Cert.KernelIdeal.Gen Cert.KernelIdeal.Row Idealize.ShloMosaic Idealize.ShloMosaic.ValueIdx

/-- Entry `(r, q)` of the output block from the feature block `x0`, the prototype block `x1` and the norms block `x2`. -/
def blockAt (x0 : Vec Ideal S8x512x784 .f32) (x1 : Vec Ideal S1024x512 .bf16) (x2 : Vec Ideal S1024x1 .f32)
    (r : Fin 8) (q : Fin 1024) : EReal :=
  Spec.negMinDist (fun c n => x0 (ix3 r c n)) (fun c => x1 (ix2 q c)) (x2 (ix2 q (0 : Fin 1)))

/-- The block as an array. -/
def blockOf (x0 : Vec Ideal S8x512x784 .f32) (x1 : Vec Ideal S1024x512 .bf16) (x2 : Vec Ideal S1024x1 .f32) :
    Vec Ideal S8x1024 .f32 :=
  fun y => blockAt x0 x1 x2 (y 0) (y 1)

theorem zeros2 : (![0, 0] : Fin 2 → Nat) = fun _ => 0 := funext fun a => by fin_cases a <;> rfl

/-- The store of image `k`'s row — the row expression of the features loaded at rows `k` of the feature block, stored
    at row `k` of the output block — agrees with `blockOf` on its rectangle. -/
theorem rowPiece_eq (x0 : Vec Ideal S8x512x784 .f32) (x1 : Vec Ideal S1024x512 .bf16) (x2 : Vec Ideal S1024x1 .f32)
    (k : ℕ) (hk : k < 8) (inbF : ∀ a, (![k, 0, 0] : Fin 3 → ℕ) a + S1x512x784.size a ≤ S8x512x784.size a)
    (inbO : ∀ a, (![k, 0] : Fin 2 → ℕ) a + S1x1024.size a ≤ S8x1024.size a) (x : S1x1024.Idx) :
    rowOf (F := Ideal) (k0_pay3 (View.ld x1 r0_0)) (k0_pay4 (View.ld x2 r0_1))
        (View.ld x0 (Rect.unit (s := S8x512x784) ![k, 0, 0] S1x512x784.size inbF)) x
      = blockOf x0 x1 x2 ((Rect.unit (s := S8x1024) ![k, 0] S1x1024.size inbO).emb x) := by
  obtain ⟨u, q, rfl⟩ : ∃ (u : Fin 1) (q : Fin 1024), x = ix2 u q := ⟨x 0, x 1, eq_ix2 x⟩
  rw [rowOf_apply, protoBlock_eq, normBlock_eq, View.ld_unit_zero (S := S1024x512) zeros2, View.ld_unit_zero (S := S1024x1) zeros2]
  have hu : u = 0 := Subsingleton.elim _ _
  subst hu
  refine Eq.trans ?_ (congrArg₂ (blockAt x0 x1 x2)
    (Fin.ext (show k = k + 1 * 0 by omega) : (⟨k, hk⟩ : Fin 8) = ((Rect.unit (s := S8x1024) ![k, 0] S1x1024.size inbO).emb (ix2 (0 : Fin 1) q)) 0)
    (Fin.ext (show q.val = 0 + 1 * q.val by omega) : q = ((Rect.unit (s := S8x1024) ![k, 0] S1x1024.size inbO).emb (ix2 (0 : Fin 1) q)) 1))
  unfold blockAt
  refine congrArg (fun f => Spec.negMinDist f (fun c => x1 (ix2 q c)) (x2 (ix2 q (0 : Fin 1)))) (funext fun c => funext fun n => ?_)
  exact congrArg x0 (funext fun a => Fin.ext (by
    match a with
    | ⟨0, _⟩ => show k + 1 * 0 = k; omega
    | ⟨1, _⟩ => show 0 + 1 * c.val = c.val; omega
    | ⟨2, _⟩ => show 0 + 1 * n.val = n.val; omega))

/-- THE BLOCK: the canon of the body's eight stores is `blockOf` of the input blocks. -/
theorem outBlock_eq (x0 : Vec Ideal S8x512x784 .f32) (x1 : Vec Ideal S1024x512 .bf16) (x2 : Vec Ideal S1024x1 .f32) :
    out0_3 (F := Ideal) x0 x1 x2 = blockOf x0 x1 x2 := by
  funext y
  unfold out0_3
  refine View.canon_apply_of_pieces (blockOf x0 x1 x2) _ ?_ y (cover0_3 _ _ _ _ _ _ _ _ y)
  intro p hp x
  simp only [List.mem_cons, List.mem_nil_iff, or_false] at hp
  rcases hp with rfl | rfl | rfl | rfl | rfl | rfl | rfl | rfl
  · exact rowPiece_eq x0 x1 x2 7 (by omega) inb_S8x512x784_S1x512x784_7_0_0 inb_S8x1024_S1x1024_7_0 x
  · exact (congrFun (row6_eq _ _ _) x).trans (rowPiece_eq x0 x1 x2 6 (by omega) inb_S8x512x784_S1x512x784_6_0_0 inb_S8x1024_S1x1024_6_0 x)
  · exact (congrFun (row5_eq _ _ _) x).trans (rowPiece_eq x0 x1 x2 5 (by omega) inb_S8x512x784_S1x512x784_5_0_0 inb_S8x1024_S1x1024_5_0 x)
  · exact (congrFun (row4_eq _ _ _) x).trans (rowPiece_eq x0 x1 x2 4 (by omega) inb_S8x512x784_S1x512x784_4_0_0 inb_S8x1024_S1x1024_4_0 x)
  · exact (congrFun (row3_eq _ _ _) x).trans (rowPiece_eq x0 x1 x2 3 (by omega) inb_S8x512x784_S1x512x784_3_0_0 inb_S8x1024_S1x1024_3_0 x)
  · exact (congrFun (row2_eq _ _ _) x).trans (rowPiece_eq x0 x1 x2 2 (by omega) inb_S8x512x784_S1x512x784_2_0_0 inb_S8x1024_S1x1024_2_0 x)
  · exact (congrFun (row1_eq _ _ _) x).trans (rowPiece_eq x0 x1 x2 1 (by omega) inb_S8x512x784_S1x512x784_1_0_0 inb_S8x1024_S1x1024_1_0 x)
  · exact (congrFun (row0_eq _ _ _) x).trans (rowPiece_eq x0 x1 x2 0 (by omega) inb_S8x512x784_S1x512x784_0_0_0 inb_S8x1024_S1x1024_0_0 x)

end Cert.KernelIdeal.Block

end
-- ==== Proof.Array.lean ====
/-
  The kernel's output array after the run, as one function of the three arrays the region reads.

  The region's grid is 4 × 2: point `(i, j)` reads images `8i … 8i+7` of the features (all channels, all patches),
  prototypes `1024j … 1024j+1023` and their norms, and writes rows `8i …`, columns `1024j …` of the `[32, 2048]` output.
  So what a point writes back is its block of ONE array function, `padded`: entry `(b, p)` is `Spec.negMinDist` of image
  `b`'s features, row `p` of the (padded) prototypes and entry `p` of the (padded) norms. The eight blocks tile the
  output, so the array ends as `padded` everywhere.
-/
import proofs.«174697_j70574902607955_1_alg».proof.Proof.Block
import Idealize.ShloMosaic.Lib.Pipeline.Value

set_option maxRecDepth 16384

noncomputable section

namespace Cert.KernelIdeal.Arr

open Cert.KernelIdeal Cert.KernelIdeal.Gen Cert.KernelIdeal.Block Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Entry `(b, p)` of the output array from the features `X0` (image × channel × patch), the padded prototypes `A6` and
    the padded norms `P5`. -/
def paddedAt (X0 : Vec Ideal S32x512x784 .f32) (A6 : Vec Ideal S2048x512 .bf16) (P5 : Vec Ideal S2048x1 .f32)
    (b : Fin 32) (p : Fin 2048) : EReal :=
  Spec.negMinDist (fun c n => X0 (ix3 b c n)) (fun c => A6 (ix2 p c)) (P5 (ix2 p (0 : Fin 1)))

/-- The output array. -/
def padded (X0 : Vec Ideal S32x512x784 .f32) (A6 : Vec Ideal S2048x512 .bf16) (P5 : Vec Ideal S2048x1 .f32) :
    Vec Ideal S32x2048 .f32 :=
  fun i => paddedAt X0 A6 P5 (i 0) (i 1)

/-- `Spec.negMinDist` of arguments equal entry by entry. -/
theorem negMinDist_congr {x x' : Fin 512 → Fin 784 → EReal} {a a' : Fin 512 → EReal} {p p' : EReal}
    (hx : ∀ c n, x c n = x' c n) (ha : ∀ c, a c = a' c) (hp : p = p') :
    Spec.negMinDist x a p = Spec.negMinDist x' a' p' := by
  rw [show x = x' from funext fun c => funext fun n => hx c n, show a = a' from funext ha, hp]

/-- The printed index maps over the grid: the feature window moves with the output's rows, the prototype and norm
    windows with its columns, and every other block index is zero. -/
theorem idx_facts : ∀ t : Fin cfg0.N,
    win0_0.index t (0 : Fin 3) = win0_3.index t (0 : Fin 2) ∧ win0_0.index t (1 : Fin 3) = 0 ∧ win0_0.index t (2 : Fin 3) = 0
    ∧ win0_1.index t (0 : Fin 2) = win0_3.index t (1 : Fin 2) ∧ win0_1.index t (1 : Fin 2) = 0
    ∧ win0_2.index t (0 : Fin 2) = win0_3.index t (1 : Fin 2) ∧ win0_2.index t (1 : Fin 2) = 0 :=
  (by decide +kernel : ∀ t : Fin grid0.N, _)

/-- Every block of the output is some point's. -/
theorem idx_onto : ∀ (q0 : Fin 4) (q1 : Fin 2), ∃ t : Fin cfg0.N, win0_3.index t = ![q0.val, q1.val] :=
  (by decide +kernel : ∀ (q0 : Fin 4) (q1 : Fin 2), ∃ t : Fin grid0.N, win0_3.index t = ![q0.val, q1.val])

/-- WHAT POINT `t` WRITES BACK is block `t` of `padded` of the arrays as the region finds them. -/
theorem flushed_eq (c : Dev nD) (t : Fin cfg0.N) :
    (dats m 0 c).flushed 3 t
      = ((cfg0.win 3).blk t).view.read (Elt Ideal) (padded (V m c main_v0) (V m c main_v6) (V m c main_v5)) := by
  show (cfg0.win 3).cut (grid0.coords t) ((dats m 0 c).after 3 t) = _
  rw [after0_3, outBlock_eq]
  obtain ⟨e0, e1, e2, e3, e4, e5, e6⟩ := idx_facts t
  funext j
  show blockAt (iblk m c 0 t) (iblk m c 1 t) (iblk m c 2 t) (j 0) (j 1)
    = paddedAt (V m c main_v0) (V m c main_v6) (V m c main_v5) ((((cfg0.win 3).blk t).view.emb j) 0) ((((cfg0.win 3).blk t).view.emb j) 1)
  unfold blockAt paddedAt
  refine negMinDist_congr (fun c' n => ?_) (fun c' => ?_) ?_
  · show V m c main_v0 (((cfg0.win 0).blk t).view.emb (ix3 (j 0) c' n)) = _
    refine congrArg (V m c main_v0) (funext fun a => Fin.ext ?_)
    match a with
    | ⟨0, _⟩ => show win0_0.index t (0 : Fin 3) * 8 + 1 * (j 0).val = win0_3.index t (0 : Fin 2) * 8 + 1 * (j 0).val; omega
    | ⟨1, _⟩ => show win0_0.index t (1 : Fin 3) * 512 + 1 * c'.val = c'.val; omega
    | ⟨2, _⟩ => show win0_0.index t (2 : Fin 3) * 784 + 1 * n.val = n.val; omega
  · show V m c main_v6 (((cfg0.win 1).blk t).view.emb (ix2 (j 1) c')) = _
    refine congrArg (V m c main_v6) (funext fun a => Fin.ext ?_)
    match a with
    | ⟨0, _⟩ => show win0_1.index t (0 : Fin 2) * 1024 + 1 * (j 1).val = win0_3.index t (1 : Fin 2) * 1024 + 1 * (j 1).val; omega
    | ⟨1, _⟩ => show win0_1.index t (1 : Fin 2) * 512 + 1 * c'.val = c'.val; omega
  · show V m c main_v5 (((cfg0.win 2).blk t).view.emb (ix2 (j 1) (0 : Fin 1))) = _
    refine congrArg (V m c main_v5) (funext fun a => Fin.ext ?_)
    match a with
    | ⟨0, _⟩ => show win0_2.index t (0 : Fin 2) * 1024 + 1 * (j 1).val = win0_3.index t (1 : Fin 2) * 1024 + 1 * (j 1).val; omega
    | ⟨1, _⟩ => show win0_2.index t (1 : Fin 2) * 1 + 1 * 0 = 0; omega

/-- An index of the output array is in point `t`'s block iff each coordinate is in the block's range on its axis. -/
theorem mem_blk (t : Fin cfg0.N) (i : S32x2048.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v7).slice (win0_3.rect t)).set ↔ _
  rw [View.set_slice_whole, Rect.mem_set_unit]
  exact Iff.rfl

/-- Every index of the output array is in some point's block: rows by eights, columns by 1024s. -/
theorem covered (i : S32x2048.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  obtain ⟨t, ht⟩ := idx_onto ⟨(i 0).val / 8, by omega⟩ ⟨(i 1).val / 1024, by omega⟩
  have q0 : win0_3.index t (0 : Fin 2) = (i 0).val / 8 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 1024 ≤ (i 1).val ∧ (i 1).val < win0_3.index t (1 : Fin 2) * 1024 + 1024; omega

/-- THE ARRAY after the run. -/
theorem final (c : Dev nD) :
    (dats m 0 c).arrAt 3 cfg0.N = padded (V m c main_v0) (V m c main_v6) (V m c main_v5) :=
  (dats m 0 c).arrAt_eq_of_cover 3 _ (fun t _ => flushed_eq m c t) covered

end Cert.KernelIdeal.Arr

end
-- ==== Proof.Host.lean ====
/-
  The kernel program's result, from the argument arrays.

  Before the region the host reshapes the features to image × channel × patch, sums each prototype's squares over the
  channels, and pads the prototypes and those sums with 48 rows to 2048; after the region it keeps columns 0 … 1999 of
  the `[32, 2048]` output. A kept column `p < 2000` reads row `p` of the padded prototypes, which is row `p` of the
  prototypes, and entry `p` of the padded sums, which is prototype `p`'s sum of squares from the zero word: the padding
  rows, whatever they hold, reach only the columns that are cut off. So the result is `Spec.result` of the reshaped
  features and the prototypes.
-/
import proofs.«174697_j70574902607955_1_alg».proof.Proof.Array
import Idealize.ShloMosaic.Lib.StableHlo.Run
import Idealize.ShloMosaic.Lib.KernelVsHost
import Idealize.ShloMosaic.Lib.ValueLayout

set_option maxRecDepth 16384

noncomputable section

namespace Cert.KernelIdeal.HostSide

open Cert.KernelIdeal Cert.KernelIdeal.Gen Cert.KernelIdeal.Block Cert.KernelIdeal.Arr
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## The three arrays the region reads, as the host leaves them -/

/-- The features, reshaped. -/
abbrev feats (c : Dev nD) : S32x512x784.Idx → EReal :=
  shapeCast S32x512x784 (m ((c : Thread nD τ).loc main_arg0)) shapeCasts_S32x512x28x28_S32x512x784

/-- The prototypes. -/
abbrev protos (c : Dev nD) : S2000x512.Idx → EReal := m ((c : Thread nD τ).loc main_arg1)

theorem feats_eq (c : Dev nD) : (V m c main_v0 : S32x512x784.Idx → EReal) = feats m c := by
  dsimp only [V, V0]
  simp only [hostOps0, hostOps0_1, hostOps0_2, hostOps0_3, hostOps0_4, List.flatten_cons, List.flatten_nil, List.append_nil,
    List.cons_append, List.nil_append]
  after_results
  rfl

theorem paddedProtos_eq (c : Dev nD) :
    (V m c main_v6 : S2048x512.Idx → EReal)
      = truncf .bf16 (pad S2048x512 ![0, 0] ![48, 0] ![0, 0] (protos m c) (sitofp (F := Ideal) .f32 (constantI S_ 32 0#32))
          pads_S2000x512_S2048x512_0480_000 h_S_) bitsLt_bf16_f32 := by
  dsimp only [V, V0]
  simp only [hostOps0, hostOps0_1, hostOps0_2, hostOps0_3, hostOps0_4, List.flatten_cons, List.flatten_nil, List.append_nil,
    List.cons_append, List.nil_append]
  after_results
  rfl

theorem paddedNorms_eq (c : Dev nD) :
    (V m c main_v5 : S2048x1.Idx → EReal)
      = pad S2048x1 ![0, 0] ![48, 0] ![0, 0]
          (broadcastInDim S2000x1 ![0] bcast_S2000_S2000x1_0
            (Host.reduceAdd (mulf (protos m c) (protos m c)) (constant (F := Ideal) S_ .f32 0x00000000#32) reducesTo_S2000x512_S2000_d1 h_S_))
          (sitofp (F := Ideal) .f32 (constantI S_ 32 0#32)) pads_S2000x1_S2048x1_0480_000 h_S_ := by
  dsimp only [V, V0]
  simp only [hostOps0, hostOps0_1, hostOps0_2, hostOps0_3, hostOps0_4, List.flatten_cons, List.flatten_nil, List.append_nil,
    List.cons_append, List.nil_append]
  after_results
  rfl

/-! ## The kept rows of the padded arrays -/

/-- Row `p < 2000` of the padded prototypes is row `p` of the prototypes. -/
theorem paddedProtos_apply (c : Dev nD) (p : Fin 2000) (k : Fin 512) :
    (V m c main_v6 : S2048x512.Idx → EReal) (ix2 (⟨p.val, by omega⟩ : Fin 2048) k) = protos m c (ix2 p k) := by
  rw [paddedProtos_eq, truncf_apply]
  exact pad_apply_of_inside _ _ _ _ _ _ _ _ (ix2 p k) (fun a => by
    match a with
    | ⟨0, _⟩ => show p.val = 0 + p.val * (0 + 1); omega
    | ⟨1, _⟩ => show k.val = 0 + k.val * (0 + 1); omega)

/-- Entry `p < 2000` of the padded sums is prototype `p`'s sum of squares over the channels, from the zero word. -/
theorem paddedNorms_apply (c : Dev nD) (p : Fin 2000) :
    (V m c main_v5 : S2048x1.Idx → EReal) (ix2 (⟨p.val, by omega⟩ : Fin 2048) (0 : Fin 1))
      = Spec.zero + ∑ k : Fin 512, protos m c (ix2 p k) * protos m c (ix2 p k) := by
  rw [paddedNorms_eq]
  refine (pad_apply_of_inside _ _ _ _ _ _ _ _ (ix2 p (0 : Fin 1)) (fun a => by
    match a with
    | ⟨0, _⟩ => show p.val = 0 + p.val * (0 + 1); omega
    | ⟨1, _⟩ => show 0 = 0 + 0 * (0 + 1); omega)).trans ?_
  refine (broadcastInDim_apply _ bcast_S2000_S2000x1_0 _ (ix2 p (0 : Fin 1)) (ix1 p) (fun a => by
    match a with
    | ⟨0, _⟩ => show p.val = if (2000 : Nat) = 1 then 0 else p.val; rw [if_neg (by decide)])).trans ?_
  simp only [Host.reduceAdd, Ideal.hostReduceAdd_def]
  rw [Ideal.hostReduceAdd_single reducesTo_S2000x512_S2000_d1 (by decide)]
  refine congrArg (_ + ·) (Finset.sum_congr rfl fun k _ => ?_)
  show protos m c _ * protos m c _ = _
  rw [show (Shape.Reduces.lift _ (ix1 p) k : S2000x512.Idx) = ix2 p k from funext fun a => Fin.ext (by
    match a with | ⟨0, _⟩ => rfl | ⟨1, _⟩ => rfl)]
  rfl

/-! ## The result buffer after the run -/

/-- The lines after the region leave, in the result buffer, `Spec.result` of the reshaped features and the prototypes. -/
theorem tail_eq (c : Dev nD) :
    (Pipeline.afterTail₀ cfgs (dats m) 0 (V0 m) [hostOps1] c main_v8 : S32x2000.Idx → EReal)
      = Spec.result (feats m c) (protos m c) := by
  unfold Pipeline.afterTail₀
  show StableHlo.after hostOps1 _ (Proc.devRef .tc main_v8) = _
  after_results
  rw [Pipeline.withArrays_arr spec0 launch0.win.arr_inj c _ _ 3]
  funext i
  obtain ⟨b, p, rfl⟩ : ∃ (b : Fin 32) (p : Fin 2000), i = ix2 b p := ⟨i 0, i 1, eq_ix2 i⟩
  refine (slice2_axis1_apply 0 _ slices_S32x2048_S32x2000_0_0 b p (⟨p.val, by omega⟩ : Fin 2048) (by simp)).trans ?_
  rw [final]
  show paddedAt (V m c main_v0) (V m c main_v6) (V m c main_v5) b (⟨p.val, by omega⟩ : Fin 2048) = Spec.distGrid (feats m c) (protos m c) b p
  unfold paddedAt Spec.distGrid
  refine negMinDist_congr (fun c' n => ?_) (fun c' => ?_) ?_
  · rw [feats_eq]
  · exact paddedProtos_apply m c p c'
  · exact paddedNorms_apply m c p

/-- THE KERNEL PROGRAM'S RUN at the extended reals: every weakly fair execution terminates with the result buffer at
    `Spec.result` of the reshaped features and the prototypes, the arguments unchanged. -/
theorem run : θ_run defs (onTc (τ := τ) (main (F := Ideal))) ⟨m, fun _ => 0, ρ⟩ fun r => ∀ c : Dev nD,
      r.2.mem ((c.tc : Thread nD τ).loc main_v8) = Spec.result (feats m c) (protos m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v8 (Pipeline.mem_restRefs_of main_v8 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.HostSide

end
-- ==== Proof.RefSide.lean ====
/-
  The reference's result is `Spec.result`.

  The reference lays the features out as image × patch × channel, sums each patch's squares over the channels, each
  prototype's squares over the channels, contracts patches with prototypes over the channels, and forms
  `‖x_n‖² + ‖a‖² − 2·⟨x_n, a⟩` clamped at zero, its root, the minimum over the patches from `+∞`, negated. Read entry by
  entry this is the patch-first form of `Spec.negMinDist` (`Spec.negMinDist_eq_patchFirst`), with the features read
  through the transpose back at image × channel × patch.
-/
import proofs.«174697_j70574902607955_1_alg».proof.Proof.Gen.ReferenceIdeal.Read
import proofs.«174697_j70574902607955_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## Where each stage reads its operand, by coordinates -/

/-- The contraction's left factor at output entry `(b, n, p)` and channel `k` is the feature `(b, k, n)`. -/
theorem patchFactor_idx (b : Fin 32) (n : Fin 784) (p : Fin 2000) (k : Fin 512) :
    idx_main_v1 (lidx_main_v7 (ix3 b n p) k) = ix3 b k n :=
  funext fun a => Fin.ext (by match a with | ⟨0, _⟩ => rfl | ⟨1, _⟩ => rfl | ⟨2, _⟩ => rfl)

/-- Its right factor is the prototype entry `(p, k)`. -/
theorem protoFactor_idx (b : Fin 32) (n : Fin 784) (p : Fin 2000) (k : Fin 512) :
    ridx_main_v7 (ix3 b n p) k = ix2 p k :=
  funext fun a => Fin.ext (by match a with | ⟨0, _⟩ => rfl | ⟨1, _⟩ => rfl)

/-- The patch's squared norm, broadcast to entry `(b, n, p)`, sums the squares of the features `(b, k, n)`. -/
theorem patchNorm_idx (b : Fin 32) (n : Fin 784) (p : Fin 2000) (k : Fin 512) :
    idx_main_v1 (idx_main_v3 (idx_main_v4 (idx_main_v9 (ix3 b n p))) k) = ix3 b k n :=
  funext fun a => Fin.ext (by match a with | ⟨0, _⟩ => rfl | ⟨1, _⟩ => rfl | ⟨2, _⟩ => rfl)

/-- The prototype's squared norm, broadcast to entry `(b, n, p)`, sums the squares of the prototype entries `(p, k)`. -/
theorem protoNorm_idx (b : Fin 32) (n : Fin 784) (p : Fin 2000) (k : Fin 512) :
    idx_main_v6 (idx_main_v8 (idx_main_v10 (ix3 b n p))) k = ix2 p k :=
  funext fun a => Fin.ext (by match a with | ⟨0, _⟩ => rfl | ⟨1, _⟩ => rfl)

/-- The distance stage at entry `(b, n, p)`: patch-first. -/
theorem dist_apply (x0 : (⟨S32x512x28x28, .f32⟩ : BufTy).Contents (Elt Ideal)) (x1 : (⟨S2000x512, .f32⟩ : BufTy).Contents (Elt Ideal))
    (b : Fin 32) (n : Fin 784) (p : Fin 2000) :
    val_main_v17 (F := Ideal) x0 x1 (ix3 b n p)
      = Ideal.sqrt (max (((Spec.zero + ∑ c : Fin 512, val_main_v0 (F := Ideal) x0 (ix3 b c n) * val_main_v0 (F := Ideal) x0 (ix3 b c n))
            + (Spec.zero + ∑ c : Fin 512, x1 (ix2 p c) * x1 (ix2 p c)))
          - Spec.two * ∑ c : Fin 512, val_main_v0 (F := Ideal) x0 (ix3 b c n) * x1 (ix2 p c)) Spec.zero) := by
  rw [val_main_v17_apply, val_main_v16_apply, val_main_v15_apply, val_main_cst_2_apply, val_main_v14_apply,
    val_main_v13_apply, val_main_v12_apply, val_main_cst_1_apply, val_main_v7_apply, val_main_v11_apply,
    val_main_v9_apply, val_main_v4_apply, val_main_v3_apply, val_main_v10_apply, val_main_v8_apply, val_main_v6_apply]
  simp only [val_main_v2_apply, val_main_v1_apply, val_main_v5_apply, val_main_cst_apply, val_main_cst_0_apply,
    patchFactor_idx, protoFactor_idx, patchNorm_idx, protoNorm_idx]
  rfl

/-- THE REFERENCE'S RESULT, entry by entry. -/
theorem result_eq (x0 : (⟨S32x512x28x28, .f32⟩ : BufTy).Contents (Elt Ideal)) (x1 : (⟨S2000x512, .f32⟩ : BufTy).Contents (Elt Ideal)) :
    val_main_v19 (F := Ideal) x0 x1 = Spec.result (val_main_v0 (F := Ideal) x0) x1 := by
  funext i
  obtain ⟨b, p, rfl⟩ : ∃ (b : Fin 32) (p : Fin 2000), i = ix2 b p := ⟨i 0, i 1, eq_ix2 i⟩
  rw [val_main_v19_apply]
  unfold val_main_v18
  rw [Host.reduce_eq_fold_single FloatOps.minimumf _ _ reducesTo_S32x784x2000_S32x2000_d1 (by decide) h_S_]
  show -((Finset.univ : Finset (Fin 784)).fold min Spec.posInf _) = Spec.distGrid _ _ b p
  unfold Spec.distGrid
  rw [← Spec.negMinDist_eq_patchFirst]
  refine congrArg (fun f => -((Finset.univ : Finset (Fin 784)).fold min Spec.posInf f)) (funext fun n => ?_)
  refine Eq.trans (congrArg (val_main_v17 (F := Ideal) x0 x1) (funext fun a => Fin.ext (by
    match a with | ⟨0, _⟩ => rfl | ⟨1, _⟩ => rfl | ⟨2, _⟩ => rfl) : _ = ix3 b n p)) ?_
  exact dist_apply x0 x1 b n p

end Cert.ReferenceIdeal.RefValue

end
-- ==== Proof.lean ====
/-
  Minus the least distance from an image's patches to each prototype: the tiled kernel against the plain reference.

  Both programs take features `[32, 512, 28, 28]` and prototypes `[2000, 512]` and return, for image `b` and prototype
  `p`, minus the minimum over the 784 patches `n` of `sqrt(max(‖x_n‖² + ‖a_p‖² − 2·⟨x_n, a_p⟩, 0))`, the norms and the
  inner product sums over the 512 channels. The kernel works on the features laid out image × channel × patch, tiles
  images by eights and prototypes (zero-padded to 2048) by 1024s, forms the inner products on the matrix unit as
  prototype × patch, adds the two norms prototype first, and cuts the padding columns off at the end; the reference
  transposes to image × patch × channel and contracts patch × prototype. On the extended reals the two are one
  function, `Spec.result`, because addition and multiplication commute and a finite sum does not depend on its order:
  no input need be finite for that, so the precondition is not opened.

  The kernel programs' frames are the generated ones; the reference's frame is its generated run with the result
  dropped; the idealization rewrote nothing, so `preserves` is trivial. For the value claim the kernel's run
  (`HostSide.run`: the generated frame run read block by block, Payload → Block → Array → Host) and the reference's
  (the generated run, read entry by entry in RefSide) are posted at the same term.
-/
import proofs.«174697_j70574902607955_1_alg».proof.Defs
import proofs.«174697_j70574902607955_1_alg».proof.Proof.Gen.Kernel
import proofs.«174697_j70574902607955_1_alg».proof.Proof.Gen.Kernel.Skeleton
import proofs.«174697_j70574902607955_1_alg».proof.Proof.Gen.Kernel.Launch
import proofs.«174697_j70574902607955_1_alg».proof.Proof.Gen.Kernel.Points
import proofs.«174697_j70574902607955_1_alg».proof.Proof.Gen.Kernel.Frame
import proofs.«174697_j70574902607955_1_alg».proof.Proof.Gen.KernelIdeal
import proofs.«174697_j70574902607955_1_alg».proof.Proof.Gen.KernelIdeal.Skeleton
import proofs.«174697_j70574902607955_1_alg».proof.Proof.Gen.KernelIdeal.Launch
import proofs.«174697_j70574902607955_1_alg».proof.Proof.Gen.KernelIdeal.Points
import proofs.«174697_j70574902607955_1_alg».proof.Proof.Gen.KernelIdeal.Frame
import proofs.«174697_j70574902607955_1_alg».proof.Proof.Gen.ReferenceIdeal
import proofs.«174697_j70574902607955_1_alg».proof.Proof.Gen.Pre_finite_inputs
import proofs.«174697_j70574902607955_1_alg».proof.Proof.Gen.ReferenceIdeal.Run
import proofs.«174697_j70574902607955_1_alg».proof.Proof.Gen.ReferenceIdeal.Read
import proofs.«174697_j70574902607955_1_alg».proof.Proof.Host
import proofs.«174697_j70574902607955_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference launches no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with `Spec.result` of the reshaped features and the prototypes they were launched on,
    and the two launches agree on those. -/
theorem algebraic : Cert.algebraic_KernelIdeal_ReferenceIdeal := by
  intro m ρ m' ρ' _ hagree
  refine ⟨fun c => Spec.result (Cert.KernelIdeal.HostSide.feats m c) (Cert.KernelIdeal.HostSide.protos m c),
    Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
